-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bcast_S_S3072x1536 : S_.BroadcastsInDim S3072x1536 (![] : Fin 0 → Fin S3072x1536.rank)
  reducesTo_S3072x1536_S_d0_1 : S3072x1536.ReducesTo [0, 1] S_
  bcast_S_S1536 : S_.BroadcastsInDim S1536 (![] : Fin 0 → Fin S1536.rank)
  reducesTo_S1536_S_d0 : S1536.ReducesTo [0] S_
  bcast_S_S1536x3072 : S_.BroadcastsInDim S1536x3072 (![] : Fin 0 → Fin S1536x3072.rank)
  reducesTo_S1536x3072_S_d0_1 : S1536x3072.ReducesTo [0, 1] S_

variable [Facts]

def fn_part1 {F : FTy → Type} [FloatOps F] (main_v13 : IVec S_ 1) (main_v16 : IVec S1536x3072 1) : IVec S_ 1 :=
  let main_c_5 : IVec S_ 1 := constantI S_ 1 1#1
  let main_v17 : IVec S_ 1 := (fun x v => Host.reduce IntOp.andi x v reducesTo_S1536x3072_S_d0_1 h_S_) main_v16 main_c_5
  let main_v18 : IVec S_ 1 := andi main_v13 main_v17
  main_v18

def fn {F : FTy → Type} [FloatOps F] (main_arg0 : FVec F S8192x3072 .f32) (main_arg1 : FVec F S3072x1536 .f32) (main_arg2 : FVec F S1536 .f32) (main_arg3 : FVec F S1536x3072 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S3072x1536 .f32 := Host.absf main_arg1
  let main_cst_0 : FVec F S_ .f32 := constant S_ .f32 0x7F800000#32
  let main_v5 : FVec F S3072x1536 .f32 := broadcastInDim S3072x1536 ![] bcast_S_S3072x1536 main_cst_0
  let main_v6 : IVec S3072x1536 1 := cmpf .olt main_v4 main_v5
  let main_c_1 : IVec S_ 1 := constantI S_ 1 1#1
  let main_v7 : IVec S_ 1 := (fun x v => Host.reduce IntOp.andi x v reducesTo_S3072x1536_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536x3072 .f32 := Host.absf main_arg3
  let main_cst_4 : FVec F S_ .f32 := constant S_ .f32 0x7F800000#32
  let main_v15 : FVec F S1536x3072 .f32 := broadcastInDim S1536x3072 ![] bcast_S_S1536x3072 main_cst_4
  let main_v16 : IVec S1536x3072 1 := cmpf .olt main_v14 main_v15
  fn_part1 (F := F) main_v13 main_v16
-- ==== Kernel.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S1x1536 : Shape := ⟨2, ![1, 1536]⟩
abbrev S8192x1536 : Shape := ⟨2, ![8192, 1536]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S3072x1536, .f32⟩
  | .hbm, ⟨2, _⟩ => ⟨S1536, .f32⟩
  | .hbm, ⟨3, _⟩ => ⟨S1536x3072, .f32⟩
  | .hbm, ⟨4, _⟩ => ⟨S3072x1536, .f32⟩
  | .hbm, ⟨5, _⟩ => ⟨S1x1536, .f32⟩
  | .hbm, ⟨6, _⟩ => ⟨S8192x1536, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 3], ![false, false, false]⟩

def k0_cond2 (i : grid0.Coords) : BitVec 1 :=
  let arg2 : BitVec 32 := BitVec.ofNat 32 (i 2).val
  let c2_i32 : BitVec 32 := 2#32
  let v16 : BitVec 1 := Scalar.cmpi .eq arg2 c2_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  transposes_S1536x3072_S3072x1536_1_0 : S1536x3072.Transposes [1, 0] S3072x1536
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x3072.size a
  hwx0_0 : ∀ i : grid0.Coords, EltTy.bits .f32 = 32 ∨ (Rect.block (s := S8192x3072) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S3072x1536.size a
  hwx0_1 : ∀ i : grid0.Coords, EltTy.bits .f32 = 32 ∨ (Rect.block (s := S3072x1536) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S3072x1536.size a
  hwx0_2 : ∀ i : grid0.Coords, EltTy.bits .f32 = 32 ∨ (Rect.block (s := S3072x1536) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x1536.size a
  hwx0_3 : ∀ i : grid0.Coords, EltTy.bits .f32 = 32 ∨ (Rect.block (s := S1x1536) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S8192x1536.size a
  hwx0_4 : ∀ i : grid0.Coords, EltTy.bits .f32 = 32 ∨ (Rect.block (s := S8192x1536) S1024x512.size (cc0_transform_4 i) (hinb0_4 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x3072 : Shape := ⟨2, ![8192, 3072]⟩
abbrev S3072x1536 : Shape := ⟨2, ![3072, 1536]⟩
abbrev S1536 : Shape := ⟨1, ![1536]⟩
abbrev S1536x3072 : Shape := ⟨2, ![1536, 3072]⟩
abbrev S8192x1536 : Shape := ⟨2, ![8192, 1536]⟩
abbrev S1x1536 : Shape := ⟨2, ![1, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S3072x1536, .f32⟩
  | .hbm, ⟨2, _⟩ => ⟨S1536, .f32⟩
  | .hbm, ⟨3, _⟩ => ⟨S1536x3072, .f32⟩
  | .hbm, ⟨4, _⟩ => ⟨S3072x1536, .f32⟩
  | .hbm, ⟨5, _⟩ => ⟨S3072x1536, .f32⟩
  | .hbm, ⟨6, _⟩ => ⟨S8192x1536, .f32⟩
  | .hbm, ⟨7, _⟩ => ⟨S1x1536, .f32⟩
  | .hbm, ⟨8, _⟩ => ⟨S8192x1536, .f32⟩
  | .hbm, ⟨9, _⟩ => ⟨S8192x1536, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S1536x3072_S3072x1536_1_0 : S1536x3072.Transposes [1, 0] S3072x1536
  bcast_S1536_S1x1536_1 : S1536.BroadcastsInDim S1x1536 (![1] : Fin 1 → Fin S1x1536.rank)
  bcast_S1x1536_S8192x1536_0_1 : S1x1536.BroadcastsInDim S8192x1536 (![0, 1] : Fin 2 → Fin S8192x1536.rank)
  dot_S8192x3072_S3072x1536_S8192x1536_1_0_0_1_n_n_wf : DotDims.WF S8192x3072 S3072x1536 S8192x1536 [1] [0] [0] [1] [] []

variable [Facts₀]

def dot_S8192x3072_S3072x1536_S8192x1536_1_0_0_1_n_n : DotDims S8192x3072 S3072x1536 S8192x1536 where
  lhsContracting := [1]
  rhsContracting := [0]
  lhsNonContracting := [0]
  rhsNonContracting := [1]
  lhsBatch := []
  rhsBatch := []
  wf := dot_S8192x3072_S3072x1536_S8192x1536_1_0_0_1_n_n_wf

class Facts : Prop extends Facts₀ where

variable [Facts]
-- ==== Proof.Spec.lean ====
/-
  The masked linear layer over the extended reals, as one function of the four argument arrays:

      out[r, u] = (∑ k < 3072, x[r, k] * (mask[u, k] * w[k, u])) + b[u]

  and the same value in the order a K-blocked accumulation produces it: the contraction axis cut into three
  blocks of 1024, each block's partial sum added to an accumulator that starts at zero, the bias added last.
  The two agree on every extended real: only associativity and commutativity of `+` and commutativity of `*`
  are used, which hold at the infinities too, so no finiteness of the inputs is needed.
-/
import Idealize.ShloMosaic.PureOps.Ideal
import Idealize.ShloMosaic.Lib.ValueIdx

noncomputable section

namespace Cert.MaskedLinear

open Idealize.ShloMosaic Idealize.ShloMosaic.ValueIdx

/-- The shapes of the four arguments and of the result. -/
abbrev SX : Shape := ⟨2, ![8192, 3072]⟩
abbrev SW : Shape := ⟨2, ![3072, 1536]⟩
abbrev SB : Shape := ⟨1, ![1536]⟩
abbrev SM : Shape := ⟨2, ![1536, 3072]⟩
abbrev SO : Shape := ⟨2, ![8192, 1536]⟩
/-- The mask transposed, and the bias as a one-row matrix: what the accumulating form reads. -/
abbrev SMT : Shape := ⟨2, ![3072, 1536]⟩
abbrev SB2 : Shape := ⟨2, ![1, 1536]⟩

/-- `out[r, u] = (∑ k, x[r, k] * (mask[u, k] * w[k, u])) + b[u]`, at explicit coordinates. -/
def maskedLinearAt (x : SX.Idx → EReal) (w : SW.Idx → EReal) (b : SB.Idx → EReal) (mk : SM.Idx → EReal)
    (r : Fin 8192) (u : Fin 1536) : EReal :=
  (∑ k : Fin 3072, x (ix2 r k) * (mk (ix2 u k) * w (ix2 k u))) + b (ix1 u)

/-- The masked linear layer as a whole array. -/
def maskedLinear (x : SX.Idx → EReal) (w : SW.Idx → EReal) (b : SB.Idx → EReal) (mk : SM.Idx → EReal) : SO.Idx → EReal :=
  fun i => maskedLinearAt x w b mk (i 0) (i 1)

/-- Position `kk` of contraction block `a` (blocks of 1024) on the contraction axis. -/
abbrev kpos (a : Fin 3) (kk : Fin 1024) : Fin 3072 := ⟨a.val * 1024 + kk.val, by have := a.isLt; have := kk.isLt; omega⟩

/-- One contraction block's partial sum at output position `(r, u)`, with the mask already transposed:
    `∑ kk < 1024, x[r, 1024 a + kk] * (w[1024 a + kk, u] * maskT[1024 a + kk, u])`. -/
def partialSum (x : SX.Idx → EReal) (w : SW.Idx → EReal) (mt : SMT.Idx → EReal) (a : Fin 3) (r : Fin 8192) (u : Fin 1536) : EReal :=
  ∑ kk : Fin 1024, x (ix2 r (kpos a kk)) * (w (ix2 (kpos a kk) u) * mt (ix2 (kpos a kk) u))

/-- The accumulating form at explicit coordinates: zero, plus block 0, plus block 1, plus block 2, plus the bias row. -/
def accumulatedAt (x : SX.Idx → EReal) (w : SW.Idx → EReal) (mt : SMT.Idx → EReal) (b2 : SB2.Idx → EReal)
    (r : Fin 8192) (u : Fin 1536) : EReal :=
  (((0 + partialSum x w mt 0 r u) + partialSum x w mt 1 r u) + partialSum x w mt 2 r u) + b2 (ix2 (0 : Fin 1) u)

/-- The accumulating form as a whole array. -/
def accumulated (x : SX.Idx → EReal) (w : SW.Idx → EReal) (mt : SMT.Idx → EReal) (b2 : SB2.Idx → EReal) : SO.Idx → EReal :=
  fun i => accumulatedAt x w mt b2 (i 0) (i 1)

/-- A sum over `3072 = 1024 + 1024 + 1024` positions is the sum of its three blocks' sums, in any additive
    commutative monoid. -/
theorem sum_three_blocks {M : Type*} [AddCommMonoid M] (f : Fin 3072 → M) :
    ∑ k : Fin 3072, f k = (∑ kk : Fin 1024, f (kpos 0 kk)) + (∑ kk : Fin 1024, f (kpos 1 kk)) + ∑ kk : Fin 1024, f (kpos 2 kk) := by
  have h := Fin.sum_univ_add (a := 1024 + 1024) (b := 1024) (f : Fin (1024 + 1024 + 1024) → M)
  have h' := Fin.sum_univ_add (a := 1024) (b := 1024) (fun k : Fin (1024 + 1024) => f (Fin.castAdd 1024 k))
  refine h.trans ?_
  rw [h']
  refine congrArg₂ (· + ·) (congrArg₂ (· + ·) ?_ ?_) ?_
  · exact Finset.sum_congr rfl fun kk _ => congrArg f (Fin.ext (by show kk.val = 0 * 1024 + kk.val; omega))
  · exact Finset.sum_congr rfl fun kk _ => congrArg f (Fin.ext (by show 1024 + kk.val = 1 * 1024 + kk.val; omega))
  · exact Finset.sum_congr rfl fun kk _ => congrArg f (Fin.ext (by show 1024 + 1024 + kk.val = 2 * 1024 + kk.val; omega))

/-- THE LAW, at explicit coordinates: with `maskT[k, u] = mask[u, k]` and `b2[0, u] = b[u]`, the accumulating form is
    the masked linear layer. -/
theorem accumulatedAt_eq (x : SX.Idx → EReal) (w : SW.Idx → EReal) (b : SB.Idx → EReal) (mk : SM.Idx → EReal)
    (mt : SMT.Idx → EReal) (b2 : SB2.Idx → EReal)
    (hmt : ∀ (k : Fin 3072) (u : Fin 1536), mt (ix2 k u) = mk (ix2 u k))
    (hb2 : ∀ u : Fin 1536, b2 (ix2 (0 : Fin 1) u) = b (ix1 u)) (r : Fin 8192) (u : Fin 1536) :
    accumulatedAt x w mt b2 r u = maskedLinearAt x w b mk r u := by
  unfold accumulatedAt maskedLinearAt partialSum
  rw [hb2 u, zero_add, sum_three_blocks (fun k => x (ix2 r k) * (mk (ix2 u k) * w (ix2 k u)))]
  simp only [hmt, mul_comm (w _) (mk _)]

/-- The same for the whole arrays. -/
theorem accumulated_eq (x : SX.Idx → EReal) (w : SW.Idx → EReal) (b : SB.Idx → EReal) (mk : SM.Idx → EReal)
    (mt : SMT.Idx → EReal) (b2 : SB2.Idx → EReal)
    (hmt : ∀ (k : Fin 3072) (u : Fin 1536), mt (ix2 k u) = mk (ix2 u k))
    (hb2 : ∀ u : Fin 1536, b2 (ix2 (0 : Fin 1) u) = b (ix1 u)) :
    accumulated x w mt b2 = maskedLinear x w b mk :=
  funext fun i => accumulatedAt_eq x w b mk mt b2 hmt hb2 (i 0) (i 1)

end Cert.MaskedLinear

end
-- ==== Proof.Pieces.lean ====
/-
  What each control case of the kernel body leaves behind, as the body's own arithmetic terms.

  The body runs in three cases along the contraction axis of the grid. Each case ends with ONE store that covers
  the accumulator block, so what the accumulator holds afterwards is that store's value: the accumulator's
  previous contents plus the product of this step's blocks (at the first step the previous contents are the zero
  block the step has just stored and read back). The last step then stores the output block: the updated
  accumulator plus the bias row.
-/
import proofs.«172102_j25434796327645_1_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- A MIDDLE contraction step leaves in the accumulator what it held plus this step's product: the body's one
    covering store of the accumulator, its loads reading the whole buffers. -/
theorem scratch_B (c : Dev nD) (i : grid0.Coords) (a3 : Memref sig .tc .vmem S1024x1024 .f32) (h3 : a3.IsWhole)
    (a4 : Memref sig .tc .vmem S1024x512 .f32) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .f32) (h8 : a8.IsWhole) (hc0 : ¬cond0_0 i) (hc1 : ¬cond0_1 i)
    (x0 : Vec F S1024x1024 .f32) (x1 : Vec F S1024x512 .f32) (x2 : Vec F S1024x512 .f32) (x3 : Vec F S1x512 .f32)
    (xs0 : Vec F S1024x512 .f32) :
    sout0_B_0 c i a3 h3 a4 h4 a5 h5 a6 h6 a7 h7 a8 h8 hc0 hc1 x0 x1 x2 x3 xs0 = k0_pay2 x1 x2 x0 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread,
    View.ld_unit_zero (S := S1024x512) hz, View.ld_unit_zero (S := S1024x1024) hz]

/-- The LAST contraction step leaves the same in the accumulator (and then writes the output from it). -/
theorem scratch_C (c : Dev nD) (i : grid0.Coords) (a3 : Memref sig .tc .vmem S1024x1024 .f32) (h3 : a3.IsWhole)
    (a4 : Memref sig .tc .vmem S1024x512 .f32) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .f32) (h8 : a8.IsWhole) (hc0 : ¬cond0_0 i) (hc1 : cond0_1 i)
    (x0 : Vec F S1024x1024 .f32) (x1 : Vec F S1024x512 .f32) (x2 : Vec F S1024x512 .f32) (x3 : Vec F S1x512 .f32)
    (xs0 : Vec F S1024x512 .f32) :
    sout0_C_0 c i a3 h3 a4 h4 a5 h5 a6 h6 a7 h7 a8 h8 hc0 hc1 x0 x1 x2 x3 xs0 = k0_pay2 x1 x2 x0 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h8.read_unread,
    View.ld_unit_zero (S := S1024x512) hz, View.ld_unit_zero (S := S1024x1024) hz]

/-- The FIRST contraction step stores the zero block, reads it back, and leaves zero plus this step's product. -/
theorem scratch_A (c : Dev nD) (i : grid0.Coords) (a3 : Memref sig .tc .vmem S1024x1024 .f32) (h3 : a3.IsWhole)
    (a4 : Memref sig .tc .vmem S1024x512 .f32) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .f32) (h8 : a8.IsWhole) (hc0 : cond0_0 i) (hc1 : ¬cond0_1 i)
    (x0 : Vec F S1024x1024 .f32) (x1 : Vec F S1024x512 .f32) (x2 : Vec F S1024x512 .f32) (x3 : Vec F S1x512 .f32) :
    sout0_A_0 c i a3 h3 a4 h4 a5 h5 a6 h6 a7 h7 a8 h8 hc0 hc1 x0 x1 x2 x3 = k0_pay2 x1 x2 x0 k0_pay1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words

  rw [View.canon_cons_unit_zero (S := S1024x512) hz, View.readCov_unit_zero (S := S1024x512) _ hz]
  simp only [View.readAt_eq_ld, h3.read_unread, h4.read_unread, h5.read_unread, h8.read_unread,
    View.ld_unit_zero (S := S1024x512) hz, View.ld_unit_zero (S := S1024x1024) hz]

/-- The last step's output block: the accumulator it has just updated, read back, plus the bias row on every row. -/
theorem out_C (c : Dev nD) (i : grid0.Coords) (a3 : Memref sig .tc .vmem S1024x1024 .f32) (h3 : a3.IsWhole)
    (a4 : Memref sig .tc .vmem S1024x512 .f32) (h4 : a4.IsWhole) (a5 : Memref sig .tc .vmem S1024x512 .f32) (h5 : a5.IsWhole)
    (a6 : Memref sig .tc .vmem S1x512 .f32) (h6 : a6.IsWhole) (a7 : Memref sig .tc .vmem S1024x512 .f32) (h7 : a7.IsWhole)
    (a8 : Memref sig .tc .vmem S1024x512 .f32) (h8 : a8.IsWhole) (hc0 : ¬cond0_0 i) (hc1 : cond0_1 i)
    (x0 : Vec F S1024x1024 .f32) (x1 : Vec F S1024x512 .f32) (x2 : Vec F S1024x512 .f32) (x3 : Vec F S1x512 .f32)
    (xs0 : Vec F S1024x512 .f32) :
    out0_C_4 c i a3 h3 a4 h4 a5 h5 a6 h6 a7 h7 a8 h8 hc0 hc1 x0 x1 x2 x3 xs0 = k0_pay3 (k0_pay2 x1 x2 x0 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words

  rw [View.canon_unit_zero hz]
  simp only [View.readAt_eq_ld, h3.read_unread, h4.read_unread, h5.read_unread, h6.read_unread, h8.read_unread,
    View.readCov_unit_zero (S := S1024x512) _ hz,
    View.ld_unit_zero (S := S1024x512) hz, View.ld_unit_zero (S := S1024x1024) hz, View.ld_unit_zero (S := S1x512) hz]

end Cert.KernelIdeal.Pieces

end
-- ==== Proof.Payloads.lean ====
/-
  The body's three arithmetic terms read at an index, over the extended reals.

  At the ideal instance a change of float format is the identity and the matrix unit's product into a zero
  accumulator is the plain sum over the contraction index, so at position (p, q) of a block:
    the reset value is 0;
    one contraction step is   acc[p, q] + ∑ kk < 1024, x[p, kk] * (w[kk, q] * maskT[kk, q]);
    the output is             acc[p, q] + bias[0, q].
-/
import proofs.«172102_j25434796327645_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payloads

open Cert.KernelIdeal Cert.KernelIdeal.Gen Idealize.ShloMosaic Idealize.ShloMosaic.ValueIdx

/-- The reset value: the zero block. -/
theorem reset_apply (p : Fin 1024) (q : Fin 512) : k0_pay1 (F := Ideal) (ix2 p q) = 0 := by
  unfold k0_pay1
  simp only [shapeCast_self]
  show Ideal.ofBits .f32 0x00000000#32 = 0
  exact Ideal.ofBits_zero_f32

/-- The matrix product's left operand is read at (row of the output, contraction position) … -/
theorem lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- … and its right operand at (contraction position, column of the output). -/
theorem rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The matrix product of two blocks into the zero block, at (p, q): the sum over the block's 1024 contraction
    positions of the products. -/
theorem product_apply (l : FVec Ideal S1024x1024 .bf16) (r : FVec Ideal S1024x512 .bf16) (p : Fin 1024) (q : Fin 512) :
    matmul dot_S1024x1024_S1024x512_S1024x512_1_0_0_1_n_n none l r (constant S1024x512 .f32 0x00000000#32) (ix2 p q)
      = ∑ kk : Fin 1024, l (ix2 p kk) * r (ix2 kk q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_0 _ _
    | ⟨1, _⟩ => exact (lhs_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- One contraction step at (p, q): what the accumulator held there plus this step's partial sum. -/
theorem step_apply (wb mb : Vec Ideal S1024x512 .f32) (xb : Vec Ideal S1024x1024 .f32) (acc : Vec Ideal S1024x512 .f32)
    (p : Fin 1024) (q : Fin 512) :
    k0_pay2 wb mb xb acc (ix2 p q) = acc (ix2 p q) + ∑ kk : Fin 1024, xb (ix2 p kk) * (wb (ix2 kk q) * mb (ix2 kk q)) := by
  unfold k0_pay2
  simp only [shapeCast_self]
  refine (addf_apply _ _ _).trans ?_
  rw [product_apply]
  rfl

/-- The output at (p, q): the accumulator there plus the bias row's entry of that column. -/
theorem output_apply (acc : Vec Ideal S1024x512 .f32) (bb : Vec Ideal S1x512 .f32) (p : Fin 1024) (q : Fin 512) :
    k0_pay3 acc bb (ix2 p q) = acc (ix2 p q) + bb (ix2 (0 : Fin 1) q) := by
  unfold k0_pay3
  simp only [shapeCast_self]
  refine (addf_apply _ _ _).trans ?_
  rw [broadcastTo_apply bb broadcasts_S1x512_S1024x512 (ix2 p q) (ix2 (0 : Fin 1) q) (fun a => by
    match a with
    | ⟨0, _⟩ => show 0 = if (1 : Nat) = 1 then 0 else _; rw [if_pos rfl]
    | ⟨1, _⟩ => show q.val = if (512 : Nat) = 1 then 0 else q.val; rw [if_neg (by decide)])]

end Cert.KernelIdeal.Payloads

end
-- ==== Proof.Blocks.lean ====
/-
  What the kernel's windows read, in terms of the whole arrays.

  The grid has 72 points `t = (i·3 + j)·3 + a`: row block `i = t / 9` (1024 rows), column block `j = t / 3 % 3`
  (512 columns), contraction block `a = t % 3` (1024 positions). At point `t` the kernel sees
    block (i, a) of x,  block (a, j) of w and of the transposed mask,  block (0, j) of the bias row,
  and writes block (i, j) of the result. The transposed mask and the bias row are made by the two host
  operations before the region: `maskT[k, u] = mask[u, k]`, `biasRow[0, u] = b[u]`.
-/
import proofs.«172102_j25434796327645_1_alg».proof.Proof.Gen.KernelIdeal.Value
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The four arrays as the region finds them. -/
abbrev xArr (c : Dev nD) : Vec F S8192x3072 .f32 := V m c main_arg0
abbrev wArr (c : Dev nD) : Vec F S3072x1536 .f32 := V m c main_arg1
abbrev mtArr (c : Dev nD) : Vec F S3072x1536 .f32 := V m c main_v0
abbrev brArr (c : Dev nD) : Vec F S1x1536 .f32 := V m c main_v1

/-- The four input blocks at a grid point. -/
abbrev xBlk (c : Dev nD) (t : Fin cfg0.N) : Vec F S1024x1024 .f32 := iblk m c 0 t
abbrev wBlk (c : Dev nD) (t : Fin cfg0.N) : Vec F S1024x512 .f32 := iblk m c 1 t
abbrev mtBlk (c : Dev nD) (t : Fin cfg0.N) : Vec F S1024x512 .f32 := iblk m c 2 t
abbrev brBlk (c : Dev nD) (t : Fin cfg0.N) : Vec F S1x512 .f32 := iblk m c 3 t

/-- The printed index maps in closed form, decided over the 72 points: which block of its array each window is at. -/
theorem idx_facts : ∀ t : Fin cfg0.N,
    win0_0.index t (0 : Fin 2) = t.val / 9 ∧ win0_0.index t (1 : Fin 2) = t.val % 3
    ∧ win0_1.index t (0 : Fin 2) = t.val % 3 ∧ win0_1.index t (1 : Fin 2) = t.val / 3 % 3
    ∧ win0_2.index t (0 : Fin 2) = t.val % 3 ∧ win0_2.index t (1 : Fin 2) = t.val / 3 % 3
    ∧ win0_3.index t (0 : Fin 2) = 0 ∧ win0_3.index t (1 : Fin 2) = t.val / 3 % 3
    ∧ win0_4.index t (0 : Fin 2) = t.val / 9 ∧ win0_4.index t (1 : Fin 2) = t.val / 3 % 3 :=
  (by decide +kernel : ∀ t : Fin grid0.N, _)

/-- x's block at point `t`, position (p, kk), is x at row `1024 (t / 9) + p`, column `1024 (t % 3) + kk`. -/
theorem xBlk_apply (c : Dev nD) (t : Fin cfg0.N) (p kk : Fin 1024) (r : Fin 8192) (k : Fin 3072)
    (hr : r.val = t.val / 9 * 1024 + p.val) (hk : k.val = t.val % 3 * 1024 + kk.val) :
    xBlk m c t (ix2 p kk) = xArr m c (ix2 r k) := by
  obtain ⟨e0, e1, -⟩ := idx_facts t
  show iblk m c 0 t (ix2 p kk) = V m c main_arg0 (ix2 r k)
  unfold iblk
  rw [View.read_apply]
  show V m c main_arg0 _ = V m c main_arg0 _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * kk.val = k.val; rw [e1, hk]; omega

/-- w's block at point `t`, position (kk, q), is w at row `1024 (t % 3) + kk`, column `512 (t / 3 % 3) + q`. -/
theorem wBlk_apply (c : Dev nD) (t : Fin cfg0.N) (kk : Fin 1024) (q : Fin 512) (k : Fin 3072) (u : Fin 1536)
    (hk : k.val = t.val % 3 * 1024 + kk.val) (hu : u.val = t.val / 3 % 3 * 512 + q.val) :
    wBlk m c t (ix2 kk q) = wArr m c (ix2 k u) := by
  obtain ⟨-, -, e0, e1, -⟩ := idx_facts t
  show iblk m c 1 t (ix2 kk q) = V m c main_arg1 (ix2 k u)
  unfold iblk
  rw [View.read_apply]
  show V m c main_arg1 _ = V m c main_arg1 _
  refine congrArg _ (funext fun a => Fin.ext ?_)
  match a with
  | ⟨0, _⟩ => show win0_1.index t (0 : Fin 2) * 1024 + 1 * kk.val = k.val; rw [e0, hk]; omega
  | ⟨1, _⟩ => show win0_1.index t (1 : Fin 2) * 512 + 1 * q.val = u.val; rw [e1, hu]; omega

/-- The transposed mask's block at point `t` likewise. -/
theorem mtBlk_apply (c : Dev nD) (t : Fin cfg0.N) (kk : Fin 1024) (q : Fin 512) (k : Fin 3072) (u : Fin 1536)
    (hk : k.val = t.val % 3 * 1024 + kk.val) (hu : u.val = t.val / 3 % 3 * 512 + q.val) :
    mtBlk m c t (ix2 kk q) = mtArr m c (ix2 k u) := by
  obtain ⟨-, -, -, -, e0, e1, -⟩ := idx_facts t
  show iblk m c 2 t (ix2 kk q) = V m c main_v0 (ix2 k u)
  unfold iblk
  rw [View.read_apply]
  show V m c main_v0 _ = V m c main_v0 _
  refine congrArg _ (funext fun a => Fin.ext ?_)
  match a with
  | ⟨0, _⟩ => show win0_2.index t (0 : Fin 2) * 1024 + 1 * kk.val = k.val; rw [e0, hk]; omega
  | ⟨1, _⟩ => show win0_2.index t (1 : Fin 2) * 512 + 1 * q.val = u.val; rw [e1, hu]; omega

/-- The bias row's block at point `t`, position (0, q), is the bias row at column `512 (t / 3 % 3) + q`. -/
theorem brBlk_apply (c : Dev nD) (t : Fin cfg0.N) (q : Fin 512) (u : Fin 1536)
    (hu : u.val = t.val / 3 % 3 * 512 + q.val) :
    brBlk m c t (ix2 (0 : Fin 1) q) = brArr m c (ix2 (0 : Fin 1) u) := by
  obtain ⟨-, -, -, -, -, -, e0, e1, -⟩ := idx_facts t
  show iblk m c 3 t (ix2 (0 : Fin 1) q) = V m c main_v1 (ix2 (0 : Fin 1) u)
  unfold iblk
  rw [View.read_apply]
  show V m c main_v1 _ = V m c main_v1 _
  refine congrArg _ (funext fun a => Fin.ext ?_)
  match a with
  | ⟨0, _⟩ => show win0_3.index t (0 : Fin 2) * 1 + 1 * 0 = 0; rw [e0]
  | ⟨1, _⟩ => show win0_3.index t (1 : Fin 2) * 512 + 1 * q.val = u.val; rw [e1, hu]; omega

/-- The region finds the mask transposed by the first host operation … -/
theorem mtArr_eq (c : Dev nD) :
    mtArr m c = transpose S3072x1536 [1, 0] (m ((c : Thread nD τ).loc main_arg3)) transposes_S1536x3072_S3072x1536_1_0 := by
  show V m c main_v0 = _
  dsimp only [Gen.V, Gen.hostOps0]
  after_results

/-- … and the bias reshaped to one row by the second. -/
theorem brArr_eq (c : Dev nD) :
    brArr m c = shapeCast S1x1536 (m ((c : Thread nD τ).loc main_arg2)) shapeCasts_S1536_S1x1536 := by
  show V m c main_v1 = _
  dsimp only [Gen.V, Gen.hostOps0]
  after_results
  rfl

/-- `maskT[k, u] = mask[u, k]`. -/
theorem mtArr_apply (c : Dev nD) (k : Fin 3072) (u : Fin 1536) :
    mtArr m c (ix2 k u) = m ((c : Thread nD τ).loc main_arg3) (ix2 u k) := by
  rw [mtArr_eq]
  exact transpose_apply [1, 0] _ transposes_S1536x3072_S3072x1536_1_0 (ix2 k u) (ix2 u k) (fun b => match b with
    | ⟨0, _⟩ => rfl
    | ⟨1, _⟩ => rfl)

/-- `biasRow[0, u] = b[u]`. -/
theorem brArr_apply (c : Dev nD) (u : Fin 1536) :
    brArr m c (ix2 (0 : Fin 1) u) = m ((c : Thread nD τ).loc main_arg2) (ix1 u) := by
  rw [brArr_eq]
  exact shapeCast_apply _ shapeCasts_S1536_S1x1536 (ix2 (0 : Fin 1) u) (ix1 u) (by
    rw [Shape.rowMajor_val_two, Shape.rowMajor_val_one]; show u.val = 0 * 1536 + u.val; omega)

end Cert.KernelIdeal.Blocks

end
-- ==== Proof.KernelResult.lean ====
/-
  The kernel's result array over the extended reals: the accumulating form of the masked linear layer, of the
  arrays the region finds.

  Along the contraction axis the accumulator holds, after the first step, `0 + s₀`; after the second,
  `(0 + s₀) + s₁`; after the third, `((0 + s₀) + s₁) + s₂`, where `sₐ` is step a's partial sum over its 1024
  contraction positions. Only the third step writes the output block: that sum plus the bias row. Reading each
  step's blocks as parts of the whole arrays turns `sₐ` into the partial sum of contraction block `a` at the output
  position's row and column, and the 24 written blocks tile the result array.
-/
import proofs.«172102_j25434796327645_1_alg».proof.Proof.Spec
import proofs.«172102_j25434796327645_1_alg».proof.Proof.Pieces
import proofs.«172102_j25434796327645_1_alg».proof.Proof.Payloads
import proofs.«172102_j25434796327645_1_alg».proof.Proof.Blocks

noncomputable section

namespace Cert.KernelIdeal.Result

open Cert.KernelIdeal Cert.KernelIdeal.Gen Cert.KernelIdeal.Blocks Cert.MaskedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The partial sum a step adds at position (p, q) of the accumulator: over the step's blocks,
    `∑ kk < 1024, x[p, kk] * (w[kk, q] * maskT[kk, q])`. -/
def stepSum (c : Dev nD) (t : Fin cfg0.N) (p : Fin 1024) (q : Fin 512) : EReal :=
  ∑ kk : Fin 1024, xBlk m c t (ix2 p kk) * (wBlk m c t (ix2 kk q) * mtBlk m c t (ix2 kk q))

/-- After a FIRST contraction step the accumulator holds zero plus that step's partial sum. -/
theorem acc_first (c : Dev nD) (t : Fin cfg0.N) (h0 : t.val % 3 = 0) (p : Fin 1024) (q : Fin 512) :
    (outsAt0 m c t.val t.isLt).2 (ix2 p q) = 0 + stepSum m c t p q := by
  have h1 : ¬t.val % 3 = 2 := by omega
  rw [outsAt0_A m c t h0 h1]
  dsimp only
  refine (congrFun (Pieces.scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) (ix2 p q)).trans ?_
  refine (Payloads.step_apply (wBlk m c t) (mtBlk m c t) (xBlk m c t) (k0_pay1 (F := Ideal)) p q).trans ?_
  rw [Payloads.reset_apply]
  rfl

/-- After a MIDDLE step it holds what the step before left plus this step's partial sum. -/
theorem acc_mid (c : Dev nD) (t : Fin cfg0.N) (h0 : ¬t.val % 3 = 0) (h1 : ¬t.val % 3 = 2) (p : Fin 1024) (q : Fin 512) :
    (outsAt0 m c t.val t.isLt).2 (ix2 p q) = (outsAt0 m c (t.val - 1) (Nat.lt_of_le_of_lt (Nat.sub_le _ _) t.isLt)).2 (ix2 p q) + stepSum m c t p q := by
  rw [outsAt0_B m c t h0 h1]
  dsimp only
  refine (congrFun (Pieces.scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) (ix2 p q)).trans ?_
  exact Payloads.step_apply (wBlk m c t) (mtBlk m c t) (xBlk m c t) (outsAt0 m c (t.val - 1) (Nat.lt_of_le_of_lt (Nat.sub_le _ _) t.isLt)).2 p q

/-- The LAST step's output block: what the step before left, plus this step's partial sum, plus the bias row. -/
theorem out_last (c : Dev nD) (t : Fin cfg0.N) (h0 : ¬t.val % 3 = 0) (h1 : t.val % 3 = 2) (p : Fin 1024) (q : Fin 512) :
    (outsAt0 m c t.val t.isLt).1 (ix2 p q)
      = ((outsAt0 m c (t.val - 1) (Nat.lt_of_le_of_lt (Nat.sub_le _ _) t.isLt)).2 (ix2 p q) + stepSum m c t p q) + brBlk m c t (ix2 (0 : Fin 1) q) := by
  rw [outsAt0_C m c t h0 h1]
  dsimp only
  refine (congrFun (Pieces.out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) (ix2 p q)).trans ?_
  refine (Payloads.output_apply (k0_pay2 (wBlk m c t) (mtBlk m c t) (xBlk m c t) (outsAt0 m c (t.val - 1) (Nat.lt_of_le_of_lt (Nat.sub_le _ _) t.isLt)).2) (brBlk m c t) p q).trans ?_
  rw [Payloads.step_apply (wBlk m c t) (mtBlk m c t) (xBlk m c t) (outsAt0 m c (t.val - 1) (Nat.lt_of_le_of_lt (Nat.sub_le _ _) t.isLt)).2 p q]
  rfl

/-- The two points before a flushing point: the middle and the first step of the same output block. -/
abbrev pt1 (t : Fin cfg0.N) : Fin cfg0.N := ⟨t.val - 1, Nat.lt_of_le_of_lt (Nat.sub_le _ _) t.isLt⟩
abbrev pt2 (t : Fin cfg0.N) : Fin cfg0.N := ⟨t.val - 1 - 1, Nat.lt_of_le_of_lt ((Nat.sub_le _ _).trans (Nat.sub_le _ _)) t.isLt⟩

/-- So the output block written at a flushing point is the ordered chain over its three steps, plus the bias row. -/
theorem out_block (c : Dev nD) (t : Fin cfg0.N) (h1 : t.val % 3 = 2) (p : Fin 1024) (q : Fin 512) :
    (outsAt0 m c t.val t.isLt).1 (ix2 p q)
      = (((0 + stepSum m c (pt2 t) p q) + stepSum m c (pt1 t) p q) + stepSum m c t p q) + brBlk m c t (ix2 (0 : Fin 1) q) := by
  have h0 : ¬t.val % 3 = 0 := by omega
  have e1 := acc_mid m c (pt1 t) (by show ¬(t.val - 1) % 3 = 0; omega) (by show ¬(t.val - 1) % 3 = 2; omega) p q
  have e2 := acc_first m c (pt2 t) (by show (t.val - 1 - 1) % 3 = 0; omega) p q
  exact (out_last m c t h0 h1 p q).trans
    (congrArg (· + brBlk m c t (ix2 (0 : Fin 1) q))
      (congrArg (· + stepSum m c t p q) (e1.trans (congrArg (· + stepSum m c (pt1 t) p q) e2))))

/-- A step's partial sum, with its blocks read from the whole arrays: contraction block `t % 3`'s partial sum at
    row `1024 (t / 9) + p`, column `512 (t / 3 % 3) + q`. -/
theorem stepSum_eq (c : Dev nD) (t : Fin cfg0.N) (p : Fin 1024) (q : Fin 512) (r : Fin 8192) (u : Fin 1536) (a : Fin 3)
    (hr : r.val = t.val / 9 * 1024 + p.val) (hu : u.val = t.val / 3 % 3 * 512 + q.val) (ha : a.val = t.val % 3) :
    stepSum m c t p q = partialSum (xArr m c) (wArr m c) (mtArr m c) a r u := by
  unfold stepSum partialSum
  refine Finset.sum_congr rfl fun kk _ => ?_
  have hk : (kpos a kk).val = t.val % 3 * 1024 + kk.val := by show a.val * 1024 + kk.val = _; rw [ha]
  rw [xBlk_apply m c t p kk r (kpos a kk) hr hk, wBlk_apply m c t kk q (kpos a kk) u hk hu,
    mtBlk_apply m c t kk q (kpos a kk) u hk hu]

/-- THE RESULT ARRAY: the accumulating form of the arrays the region finds. -/
abbrev result (c : Dev nD) : Vec Ideal S8192x1536 .f32 :=
  accumulated (xArr m c) (wArr m c) (mtArr m c) (brArr m c)

/-- What a flushing point writes back is its block of the result array. -/
theorem flushed_eq (c : Dev nD) (t : Fin cfg0.N) (hf : (cfg0.win 4).flush t = true) :
    (dats m 0 c).flushed 4 t = ((cfg0.win 4).blk t).view.read (Elt Ideal) (result m c) := by
  have h1 : t.val % 3 = 2 := (flush0_4 t).mp hf
  have hN : t.val < 72 := lt_of_lt_of_eq t.isLt (show cfg0.N = 72 from N_0)
  obtain ⟨-, -, -, -, -, -, -, -, e0, e1⟩ := idx_facts t
  rw [Value.flushed4]
  funext y
  obtain ⟨p, q, rfl⟩ : ∃ (p : Fin 1024) (q : Fin 512), y = ix2 p q := ⟨y 0, y 1, eq_ix2 y⟩
  have hr : t.val / 9 * 1024 + p.val < 8192 := by have := p.isLt; omega
  have hu : t.val / 3 % 3 * 512 + q.val < 1536 := by have := q.isLt; omega
  have hemb : ((cfg0.win 4).blk t).view.emb (ix2 p q) = ix2 (⟨t.val / 9 * 1024 + p.val, hr⟩ : Fin 8192) (⟨t.val / 3 % 3 * 512 + q.val, hu⟩ : Fin 1536) :=
    funext fun a => Fin.ext (by
      match a with
      | ⟨0, _⟩ => show win0_4.index t (0 : Fin 2) * 1024 + 1 * p.val = t.val / 9 * 1024 + p.val; rw [e0]; omega
      | ⟨1, _⟩ => show win0_4.index t (1 : Fin 2) * 512 + 1 * q.val = t.val / 3 % 3 * 512 + q.val; rw [e1]; omega)
  show (outsAt0 m c t.val t.isLt).1 (ix2 p q) = result m c (((cfg0.win 4).blk t).view.emb (ix2 p q))
  rw [hemb, out_block m c t h1 p q]
  show _ = accumulatedAt (xArr m c) (wArr m c) (mtArr m c) (brArr m c) ⟨t.val / 9 * 1024 + p.val, hr⟩ ⟨t.val / 3 % 3 * 512 + q.val, hu⟩
  unfold accumulatedAt
  rw [stepSum_eq m c (pt2 t) p q ⟨t.val / 9 * 1024 + p.val, hr⟩ ⟨t.val / 3 % 3 * 512 + q.val, hu⟩ 0
      (by show t.val / 9 * 1024 + p.val = (t.val - 1 - 1) / 9 * 1024 + p.val; omega) (by show t.val / 3 % 3 * 512 + q.val = (t.val - 1 - 1) / 3 % 3 * 512 + q.val; omega)
      (by show 0 = (t.val - 1 - 1) % 3; omega),
    stepSum_eq m c (pt1 t) p q ⟨t.val / 9 * 1024 + p.val, hr⟩ ⟨t.val / 3 % 3 * 512 + q.val, hu⟩ 1
      (by show t.val / 9 * 1024 + p.val = (t.val - 1) / 9 * 1024 + p.val; omega) (by show t.val / 3 % 3 * 512 + q.val = (t.val - 1) / 3 % 3 * 512 + q.val; omega)
      (by show 1 = (t.val - 1) % 3; omega),
    stepSum_eq m c t p q ⟨t.val / 9 * 1024 + p.val, hr⟩ ⟨t.val / 3 % 3 * 512 + q.val, hu⟩ 2 rfl rfl
      (by show 2 = t.val % 3; omega),
    brBlk_apply m c t q ⟨t.val / 3 % 3 * 512 + q.val, hu⟩ rfl]

/-- An index of the result array is in point `t`'s block iff each coordinate is in the block's range. -/
theorem mem_blk (t : Fin cfg0.N) (i : S8192x1536.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v2).slice (win0_4.rect t)).set ↔ _
  rw [View.set_slice_whole, Rect.mem_set_unit]
  exact Iff.rfl

/-- The written blocks tile the result array: position (r, u) is in the block the last step of row block
    `r / 1024`, column block `u / 512` writes. -/
theorem cover (i : S8192x1536.Idx) :
    ∃ t : Fin cfg0.N, (cfg0.win 4).flush t = true ∧ i ∈ ((cfg0.win 4).blk t).view.set := by
  have h0 : (i 0).val < 8192 := idx2_lt0 i
  have h1 : (i 1).val < 1536 := idx2_lt1 i
  have hN : cfg0.N = 72 := N_0
  have hlt : (i 0).val / 1024 * 9 + (i 1).val / 512 * 3 + 2 < cfg0.N := lt_of_lt_of_eq (by omega) hN.symm
  obtain ⟨-, -, -, -, -, -, -, -, e0, e1⟩ := idx_facts ⟨_, hlt⟩
  refine ⟨⟨_, hlt⟩, (flush0_4 _).mpr (by show ((i 0).val / 1024 * 9 + (i 1).val / 512 * 3 + 2) % 3 = 2; omega), ?_⟩
  rw [mem_blk]
  intro a
  match a with
  | ⟨0, _⟩ =>
    show win0_4.index ⟨_, hlt⟩ (0 : Fin 2) * 1024 ≤ (i 0).val ∧ (i 0).val < win0_4.index ⟨_, hlt⟩ (0 : Fin 2) * 1024 + 1024
    rw [e0]; show ((i 0).val / 1024 * 9 + (i 1).val / 512 * 3 + 2) / 9 * 1024 ≤ _ ∧ _ < ((i 0).val / 1024 * 9 + (i 1).val / 512 * 3 + 2) / 9 * 1024 + 1024
    omega
  | ⟨1, _⟩ =>
    show win0_4.index ⟨_, hlt⟩ (1 : Fin 2) * 512 ≤ (i 1).val ∧ (i 1).val < win0_4.index ⟨_, hlt⟩ (1 : Fin 2) * 512 + 512
    rw [e1]; show ((i 0).val / 1024 * 9 + (i 1).val / 512 * 3 + 2) / 3 % 3 * 512 ≤ _ ∧ _ < ((i 0).val / 1024 * 9 + (i 1).val / 512 * 3 + 2) / 3 % 3 * 512 + 512
    omega

/-- So after the run the result array holds the accumulating form. -/
theorem final (c : Dev nD) : (dats m 0 c).arrAt 4 cfg0.N = result m c :=
  (dats m 0 c).arrAt_eq_of_cover 4 (result m c) (flushed_eq m c) cover

/-- With the host operations read (`maskT[k, u] = mask[u, k]`, `biasRow[0, u] = b[u]`) and the law of the
    specification, the result array is the masked linear layer of the four arguments as launched. -/
theorem result_eq (c : Dev nD) :
    result m c = maskedLinear (m ((c : Thread nD τ).loc main_arg0)) (m ((c : Thread nD τ).loc main_arg1))
      (m ((c : Thread nD τ).loc main_arg2)) (m ((c : Thread nD τ).loc main_arg3)) := by
  have ex : xArr m c = m ((c : Thread nD τ).loc main_arg0) := V_main_arg0 m c
  have ew : wArr m c = m ((c : Thread nD τ).loc main_arg1) := V_main_arg1 m c
  show accumulated (xArr m c) (wArr m c) (mtArr m c) (brArr m c) = _
  rw [ex, ew]
  exact accumulated_eq _ _ _ _ _ _ (fun k u => mtArr_apply m c k u) (fun u => brArr_apply m c u)

/-- THE RUN, READ: every weakly fair execution of the idealized kernel terminates with the result array at the masked
    linear layer of the arguments, the arguments unchanged. -/
theorem run : θ_run defs (onTc (τ := τ) (main (F := Ideal))) ⟨m, fun _ => 0, ρ⟩ fun r => ∀ c : Dev nD,
      r.2.mem ((c : Thread nD τ).loc main_v2) = maskedLinear (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (result_eq m c)), (h c).2⟩)
    (Value.run_blocks m ρ)

end Cert.KernelIdeal.Result

end
-- ==== Proof.RefResult.lean ====
/-
  The reference's result over the extended reals is the masked linear layer.

  The reference transposes the mask, multiplies it into w entry by entry, contracts x with the product over
  all 3072 positions at once, and adds the bias broadcast over the rows. Read at position (r, u), operation by
  operation, that is `(∑ k, x[r, k] * (mask[u, k] * w[k, u])) + b[u]`.
-/
import proofs.«172102_j25434796327645_1_alg».proof.Proof.Spec
import proofs.«172102_j25434796327645_1_alg».proof.Proof.Gen.ReferenceIdeal.Read

noncomputable section

namespace Cert.ReferenceIdeal.Result

open Cert.ReferenceIdeal Cert.ReferenceIdeal.Gen Cert.ReferenceIdeal.Read Cert.MaskedLinear
open Idealize.ShloMosaic Idealize.ShloMosaic.ValueIdx

/-- The reference's last stage, as a function of the four arguments, is the masked linear layer. -/
theorem stage_eq (x0 : (⟨S8192x3072, .f32⟩ : BufTy).Contents (Elt Ideal)) (x1 : (⟨S3072x1536, .f32⟩ : BufTy).Contents (Elt Ideal))
    (x2 : (⟨S1536, .f32⟩ : BufTy).Contents (Elt Ideal)) (x3 : (⟨S1536x3072, .f32⟩ : BufTy).Contents (Elt Ideal)) :
    val_main_v5 (F := Ideal) x0 x1 x2 x3 = maskedLinear x0 x1 x2 x3 := by
  funext i
  obtain ⟨r, u, rfl⟩ : ∃ (r : Fin 8192) (u : Fin 1536), i = ix2 r u := ⟨i 0, i 1, eq_ix2 i⟩
  -- the composed index functions of the read lemmas, at (r, u)
  have el : ∀ k : Fin 3072, lidx_main_v2 (ix2 r u) k = ix2 r k := fun k =>
    funext fun a => Fin.ext (by match a with | ⟨0, _⟩ => rfl | ⟨1, _⟩ => rfl)
  have er : ∀ k : Fin 3072, ridx_main_v2 (ix2 r u) k = ix2 k u := fun k =>
    funext fun a => Fin.ext (by match a with | ⟨0, _⟩ => rfl | ⟨1, _⟩ => rfl)
  have et : ∀ k : Fin 3072, idx_main_v0 (ix2 k u) = ix2 u k := fun k =>
    funext fun a => Fin.ext (by match a with | ⟨0, _⟩ => rfl | ⟨1, _⟩ => rfl)
  have eb : idx_main_v3 (idx_main_v4 (ix2 r u)) = ix1 u :=
    funext fun a => Fin.ext (by match a with | ⟨0, _⟩ => rfl)
  rw [val_main_v5_apply, val_main_v2_apply, val_main_v4_apply, val_main_v3_apply]
  simp only [val_main_v1_apply, val_main_v0_apply, el, er, et, eb]
  rfl

end Cert.ReferenceIdeal.Result

end
-- ==== Proof.lean ====
/-
  The kernel computes a masked linear layer, `out = x @ (maskᵀ * w) + b`, with the contraction axis cut into three
  blocks: an accumulator block is zeroed at the first contraction step, each step adds the product of its x block
  with the entrywise product of its w and transposed-mask blocks, and the last step writes the accumulator plus
  the bias row. The reference contracts all 3072 positions at once.

  Over the extended reals both results are, at every position (r, u),
      (∑ k < 3072, x[r, k] * (mask[u, k] * w[k, u])) + b[u] :
  the change to bf16 before the matrix unit is the identity there, `w * maskᵀ` and `maskᵀ * w` agree by commutativity
  of the product, and the ordered chain `((0 + s₀) + s₁) + s₂` of the three blocks' partial sums is the whole sum by
  associativity of the sum. Neither law needs the inputs to be finite, so the precondition is never opened.

  The three programs' runs (termination, no fault, arguments unchanged) are the generated frames and the
  reference's generated run; the idealization rewrote no operation, so there is nothing to preserve beyond the
  program's own text read over the extended reals.
-/
import proofs.«172102_j25434796327645_1_alg».proof.Defs
import proofs.«172102_j25434796327645_1_alg».proof.Proof.Gen.Kernel
import proofs.«172102_j25434796327645_1_alg».proof.Proof.Gen.Kernel.Skeleton
import proofs.«172102_j25434796327645_1_alg».proof.Proof.Gen.Kernel.Launch
import proofs.«172102_j25434796327645_1_alg».proof.Proof.Gen.Kernel.Points
import proofs.«172102_j25434796327645_1_alg».proof.Proof.Gen.Kernel.Frame
import proofs.«172102_j25434796327645_1_alg».proof.Proof.Gen.KernelIdeal
import proofs.«172102_j25434796327645_1_alg».proof.Proof.Gen.KernelIdeal.Skeleton
import proofs.«172102_j25434796327645_1_alg».proof.Proof.Gen.KernelIdeal.Launch
import proofs.«172102_j25434796327645_1_alg».proof.Proof.Gen.KernelIdeal.Points
import proofs.«172102_j25434796327645_1_alg».proof.Proof.Gen.KernelIdeal.Frame
import proofs.«172102_j25434796327645_1_alg».proof.Proof.Gen.ReferenceIdeal
import proofs.«172102_j25434796327645_1_alg».proof.Proof.Gen.Pre_finite_inputs
import proofs.«172102_j25434796327645_1_alg».proof.Proof.Gen.KernelIdeal.Value
import proofs.«172102_j25434796327645_1_alg».proof.Proof.Gen.ReferenceIdeal.Run
import proofs.«172102_j25434796327645_1_alg».proof.Proof.Gen.ReferenceIdeal.Read
import proofs.«172102_j25434796327645_1_alg».proof.Proof.KernelResult
import proofs.«172102_j25434796327645_1_alg».proof.Proof.RefResult
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs, from memories that agree on the four arguments, end with the result array at the masked linear
    layer of those arguments: the kernel's run by the accumulating form and the law that joins it to the whole sum,
    the reference's by reading its six operations at an index. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Result.stage_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
